-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S256x128 .f32) (main_arg3 : FVec F S128 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩
abbrev S10000x1 : Shape := ⟨2, ![10000, 1]⟩
abbrev S10000x129 : Shape := ⟨2, ![10000, 129]⟩
abbrev S128x128 : Shape := ⟨2, ![128, 128]⟩
abbrev S1x128 : Shape := ⟨2, ![1, 128]⟩
abbrev S400x10000 : Shape := ⟨2, ![400, 10000]⟩
abbrev S400x128 : Shape := ⟨2, ![400, 128]⟩
abbrev S400x129 : Shape := ⟨2, ![400, 129]⟩
abbrev S400x1 : Shape := ⟨2, ![400, 1]⟩

abbrev nBuf : Space → Nat
  | .hbm => 22
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S10000x128, .bf16⟩
  | .hbm, ⟨7, _⟩ => ⟨S_, .bf16⟩
  | .hbm, ⟨8, _⟩ => ⟨S10000x1, .bf16⟩
  | .hbm, ⟨9, _⟩ => ⟨S10000x129, .bf16⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S10000x128, .f32⟩
  | .hbm, ⟨14, _⟩ => ⟨S10000x128, .bf16⟩
  | .hbm, ⟨15, _⟩ => ⟨S_, .bf16⟩
  | .hbm, ⟨16, _⟩ => ⟨S10000x1, .bf16⟩
  | .hbm, ⟨17, _⟩ => ⟨S10000x129, .bf16⟩
  | .hbm, ⟨18, _⟩ => ⟨S128x128, .f32⟩
  | .hbm, ⟨19, _⟩ => ⟨S128x128, .f32⟩
  | .hbm, ⟨20, _⟩ => ⟨S1x128, .f32⟩
  | .hbm, ⟨21, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x129, .bf16⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x128, .f32⟩
  | .local _ .vmem, ⟨9, _⟩ => ⟨S400x128, .f32⟩
  | .local _ .vmem, ⟨10, _⟩ => ⟨S400x10000, .f32⟩
  | .local _ .vmem, ⟨11, _⟩ => ⟨S400x10000, .f32⟩
  | .local _ .vmem, ⟨12, _⟩ => ⟨S10000x129, .bf16⟩
  | .local _ .vmem, ⟨13, _⟩ => ⟨S400x128, .f32⟩
  | .local _ .vmem, ⟨14, _⟩ => ⟨S400x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S400x128, .f32⟩
  | .local _ .vmem, ⟨19, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x129 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x129 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  bcast_S_S10000x1 : S_.BroadcastsInDim S10000x1 (![] : Fin 0 → Fin S10000x1.rank)
  concatenates_S10000x128_S10000x1_S10000x129_d1 : Shape.Concatenates [S10000x128, S10000x1] S10000x129 1
  slices_S256x128_S128x128_0_0 : S256x128.Slices ![0, 0] S128x128
  slices_S256x128_S128x128_128_0 : S256x128.Slices ![128, 0] S128x128
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x129_S10000x129_0_0 : ∀ a, (![0, 0] : Fin 2 → Nat) a + S10000x129.size a ≤ S10000x129.size a
  h_S10000x129 : 0 < S10000x129.numel
  shapeCasts_S10000x129_S10000x129 : S10000x129.ShapeCasts S10000x129
  slices_S400x129_o0_0_S400x128 : S400x129.Slices ![0, 0] S400x128
  slices_S400x129_o0_128_S400x1 : S400x129.Slices ![0, 128] S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S400x128_S400x128 : S400x128.ShapeCasts S400x128
  dot_S400x10000_S10000x129_S400x129_1_0_0_1_n_n_wf : DotDims.WF S400x10000 S10000x129 S400x129 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x129.size a ≤ S10000x129.size a
  hwx0_1 : ∀ i : grid0.Coords, EltTy.bits .bf16 = 32 ∨ (Rect.block (s := S10000x129) S10000x129.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x129.size a ≤ S10000x129.size a
  hwx1_1 : ∀ i : grid1.Coords, EltTy.bits .bf16 = 32 ∨ (Rect.block (s := S10000x129) S10000x129.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)

variable [Facts₀]

def dot_S400x10000_S10000x129_S400x129_1_0_0_1_n_n : DotDims S400x10000 S10000x129 S400x129 where
  lhsContracting := [1]
  rhsContracting := [0]
  lhsNonContracting := [0]
  rhsNonContracting := [1]
  lhsBatch := []
  rhsBatch := []
  wf := dot_S400x10000_S10000x129_S400x129_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x129.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S10000x129.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S10000x1, .f32⟩
  | .hbm, ⟨27, _⟩ => ⟨S_, .f32⟩
  | .hbm, ⟨28, _⟩ => ⟨S_, .f32⟩
  | .hbm, ⟨29, _⟩ => ⟨S10000x1, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x256, .f32⟩
  | .hbm, ⟨35, _⟩ => ⟨S10000x128, .f32⟩
  | .hbm, ⟨36, _⟩ => ⟨S1x128, .f32⟩
  | .hbm, ⟨37, _⟩ => ⟨S10000x128, .f32⟩
  | .hbm, ⟨38, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  One mean-aggregation graph layer over a dense weighted adjacency matrix, entry by entry on the extended reals.

  For an adjacency matrix `A` (10000 × 10000), node features `X` (10000 × 128), a weight matrix `W` (256 × 128: its
  upper half multiplies a node's own features, its lower half the aggregated ones) and a bias `b`:
      deg i      = max ε (Σ_l A(i,l))                      (ε the number the word 0x358637BD denotes, about 1e-6)
      mean i k   = (Σ_l A(i,l) · X(l,k)) / deg i
      layer i j  = Σ_{k<128} X(i,k) · W(k,j) + Σ_{k<128} mean i k · W(128+k, j) + b j .
  `layerAt` is that entry. `rowFn` is the same entry as a device computes it for a block of `n` rows: the
  neighbour sums AND the degree come out of ONE product of the adjacency rows with the features widened by a column
  of ones (column 128 of `XA`), the two halves of `W` arrive as two separate 128 × 128 tables and the bias as a
  one-row table. `rowFn_eq_layerAt` says the two agree once the widened features, the halves and the bias row are
  what they should be: the only arithmetic is `a · 1 = a` inside the degree's sum. `rowFn_congr` says a row of
  `rowFn` depends on the adjacency and the features only through that row, so a block of rows of the whole array's
  function is the function of the block.
-/
import Idealize.ShloMosaic.Lib.ValueIdx
import Idealize.ShloMosaic.PureOps.Ideal
import Mathlib.Algebra.BigOperators.Fin

noncomputable section

namespace Cert.Sage

open Idealize.ShloMosaic Idealize.ShloMosaic.ValueIdx

/-- A matrix of extended reals, indexed the way the printed arrays are. -/
abbrev Mat (a b : ℕ) : Type := (⟨2, ![a, b]⟩ : Shape).Idx → EReal
/-- A vector of extended reals. -/
abbrev Row (a : ℕ) : Type := (⟨1, ![a]⟩ : Shape).Idx → EReal

/-- The least degree a row's neighbour sum is divided by. -/
def floorDeg : EReal := Ideal.ofBits .f32 0x358637BD#32

/-- Entry `(i, j)` of the layer's result before any activation. -/
def layerAt (A : Mat 10000 10000) (X : Mat 10000 128) (W : Mat 256 128) (b : Row 128) (i : Fin 10000) (j : Fin 128) : EReal :=
  (∑ k : Fin 128, X (ix2 i k) * W (ix2 (⟨k.val, by have := k.isLt; omega⟩ : Fin 256) j)
    + ∑ k : Fin 128, Ideal.div (∑ l : Fin 10000, A (ix2 i l) * X (ix2 l k)) (max floorDeg (∑ l : Fin 10000, A (ix2 i l)))
        * W (ix2 (⟨128 + k.val, by have := k.isLt; omega⟩ : Fin 256) j))
  + b (ix1 j)

/-- The layer without activation, as an array. -/
def layer (A : Mat 10000 10000) (X : Mat 10000 128) (W : Mat 256 128) (b : Row 128) : Mat 10000 128 :=
  fun y => layerAt A X W b (y 0) (y 1)

/-- The layer followed by `max · 0`, as an array (the zero kept as the word it is printed as). -/
def layerRelu (A : Mat 10000 10000) (X : Mat 10000 128) (W : Mat 256 128) (b : Row 128) : Mat 10000 128 :=
  fun y => max (layerAt A X W b (y 0) (y 1)) (Ideal.ofBits .f32 0x00000000#32)

/-- The same entry as computed on a block of `n` rows from the widened features `XA` (column 128 all ones), the
    block's own feature rows `XS`, the two halves of the weights and the bias as a one-row table. -/
def rowFn {n : ℕ} (A : Mat n 10000) (XA : Mat 10000 129) (XS : Mat n 128) (WS WN : Mat 128 128) (B : Mat 1 128)
    (p : Fin n) (q : Fin 128) : EReal :=
  (∑ k : Fin 128, XS (ix2 p k) * WS (ix2 k q)
    + ∑ k : Fin 128, Ideal.div (∑ l : Fin 10000, A (ix2 p l) * XA (ix2 l (⟨k.val, by have := k.isLt; omega⟩ : Fin 129)))
        (max floorDeg (∑ l : Fin 10000, A (ix2 p l) * XA (ix2 l (⟨128, by omega⟩ : Fin 129)))) * WN (ix2 k q))
  + B (ix2 (0 : Fin 1) q)

/-- `rowFn` at a row of one set of tables is `rowFn` at a row of another as soon as the two adjacency rows, the two
    feature rows and the other tables agree entry by entry: a row of `rowFn` reads the adjacency and the features only
    in that row, so a block of rows of the whole array's function is the function of the block. -/
theorem rowFn_congr {n m : ℕ} (A : Mat n 10000) (A' : Mat m 10000) (XA XA' : Mat 10000 129) (XS : Mat n 128) (XS' : Mat m 128)
    (WS WS' WN WN' : Mat 128 128) (B B' : Mat 1 128) (p : Fin m) (i : Fin n) (q : Fin 128)
    (hA : ∀ l : Fin 10000, A' (ix2 p l) = A (ix2 i l))
    (hXA : ∀ (l : Fin 10000) (c : Fin 129), XA' (ix2 l c) = XA (ix2 l c))
    (hX : ∀ k : Fin 128, XS' (ix2 p k) = XS (ix2 i k))
    (hWS : ∀ k q : Fin 128, WS' (ix2 k q) = WS (ix2 k q)) (hWN : ∀ k q : Fin 128, WN' (ix2 k q) = WN (ix2 k q))
    (hB : ∀ q : Fin 128, B' (ix2 (0 : Fin 1) q) = B (ix2 (0 : Fin 1) q)) :
    rowFn A' XA' XS' WS' WN' B' p q = rowFn A XA XS WS WN B i q := by
  unfold rowFn
  simp only [hA, hXA, hX, hWS, hWN, hB]

/-- With the features widened by a column of ones, the weights split in their halves and the bias laid as a row, the
    device's form is the layer's entry: the degree's `Σ_l A(i,l) · 1` is `Σ_l A(i,l)`. -/
theorem rowFn_eq_layerAt (A : Mat 10000 10000) (X : Mat 10000 128) (W : Mat 256 128) (b : Row 128)
    (XA : Mat 10000 129) (WS WN : Mat 128 128) (B : Mat 1 128)
    (hXA : ∀ (l : Fin 10000) (k : Fin 128), XA (ix2 l (⟨k.val, by have := k.isLt; omega⟩ : Fin 129)) = X (ix2 l k))
    (hone : ∀ l : Fin 10000, XA (ix2 l (⟨128, by omega⟩ : Fin 129)) = 1)
    (hWS : ∀ (k q : Fin 128), WS (ix2 k q) = W (ix2 (⟨k.val, by have := k.isLt; omega⟩ : Fin 256) q))
    (hWN : ∀ (k q : Fin 128), WN (ix2 k q) = W (ix2 (⟨128 + k.val, by have := k.isLt; omega⟩ : Fin 256) q))
    (hB : ∀ q : Fin 128, B (ix2 (0 : Fin 1) q) = b (ix1 q)) (i : Fin 10000) (j : Fin 128) :
    rowFn A XA X WS WN B i j = layerAt A X W b i j := by
  unfold rowFn layerAt
  simp only [hXA, hone, hWS, hWN, hB, mul_one]

end Cert.Sage

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.LibMatLayout.lean ====
/-
  Two layout operations on matrices read at an entry given by its coordinates, for any extents.
  * A unit-stride rectangular piece of a matrix `[n, m]`, `a` rows by `b` columns starting at `(o₀, o₁)`: its entry
    `(p, q)` is the matrix at `(o₀ + p, o₁ + q)` (`slice2_apply`; the target index is a parameter with its two
    coordinate equations, so that a caller may spell `0 + k` as `k`).
  * A column `[n, 1]` repeated along the columns to `[n, b]`: its entry `(p, q)` is the column at `(p, 0)`
    (`colBcast_apply`).
-/
import Idealize.ShloMosaic.Lib.ValueLayout

namespace Cert.MatLayout

open Idealize.ShloMosaic Idealize.ShloMosaic.ValueIdx

variable {α : Type}

/-- Entry `(p, q)` of the `a × b` piece of `x` at offsets `(o₀, o₁)` is `x` at `(i, j)` with `i = o₀ + p`, `j = o₁ + q`. -/
theorem slice2_apply {n m a b : ℕ} (off : Fin 2 → ℕ) (x : (⟨2, ![n, m]⟩ : Shape).Idx → α)
    (h : (⟨2, ![n, m]⟩ : Shape).Slices off ⟨2, ![a, b]⟩) (p : Fin a) (q : Fin b) (i : Fin n) (j : Fin m)
    (hi : i.val = off 0 + p.val) (hj : j.val = off 1 + q.val) :
    extractStridedSlice ⟨2, ![a, b]⟩ off x h (ix2 p q) = x (ix2 i j) :=
  extractStridedSlice_apply off x h (ix2 p q) (ix2 i j) fun ax => by
    match ax with
    | ⟨0, _⟩ => exact hi
    | ⟨1, _⟩ => exact hj

/-- Entry `(p, q)` of a column repeated along the columns is the column's entry `(p, 0)`. -/
theorem colBcast_apply {n b : ℕ} (x : (⟨2, ![n, 1]⟩ : Shape).Idx → α)
    (h : (⟨2, ![n, 1]⟩ : Shape).Broadcasts ⟨2, ![n, b]⟩) (p : Fin n) (q : Fin b) :
    broadcastTo ⟨2, ![n, b]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    split
    · have := p.isLt; omega
    · rfl
  | ⟨1, _⟩ => rfl

end Cert.MatLayout
-- ==== Proof.Body.lean ====
/-
  The arithmetic of one layer's kernel body on a block of 400 rows, read at an entry `(p, q)` on the extended reals.

  Both pallas_calls run the same body: the block of adjacency rows times the features widened by a column of ones gives,
  in one product, the neighbour sums (columns 0..127) and the row's degree (column 128); the sums are divided by the
  degree floored at ε; the block's own rows times the upper weights, plus the means times the lower weights, plus the
  bias row. The first call ends with `max · 0`, the second does not (and casts its own rows to their own shape
  first, which changes nothing). `prod`, `mean`, `pre` name the three stages; `pre_apply` says that entry `(p, q)`
  of the result is `Sage.rowFn` of the loaded blocks: each product into a zero accumulator is a sum over the
  contracted coordinate, a slice reads its operand at the offset, a broadcast column reads the column.
-/
import proofs.«166561_g21534966022541_cont_8to1_1342_2_alg».proof.Proof.Gen.KernelIdeal.Skeleton
import proofs.«166561_g21534966022541_cont_8to1_1342_2_alg».proof.Proof.Spec
import proofs.«166561_g21534966022541_cont_8to1_1342_2_alg».proof.Proof.LibPlainDot
import proofs.«166561_g21534966022541_cont_8to1_1342_2_alg».proof.Proof.LibMatLayout
import Idealize.ShloMosaic.Lib.Pipeline.Value
import Idealize.ShloMosaic.Lib.ValueLayout

noncomputable section

namespace Cert.KernelIdeal.Body

open Cert.KernelIdeal Cert.KernelIdeal.Gen
open Idealize.ShloMosaic Idealize.ShloMosaic.ValueIdx

/-- The adjacency block times the widened features, into a zero accumulator. -/
def prod (x0 : FVec Ideal S400x10000 .f32) (x1 : FVec Ideal S10000x129 .bf16) : FVec Ideal S400x129 .f32 :=
  matmul dot_S400x10000_S10000x129_S400x129_1_0_0_1_n_n none (truncf .bf16 x0 bitsLt_bf16_f32)
    (shapeCast S10000x129 x1 shapeCasts_S10000x129_S10000x129) (constant S400x129 .f32 0x00000000#32)

/-- Entry `(p, c)` of the product is the sum over the 10000 neighbours. -/
theorem prod_apply (x0 : FVec Ideal S400x10000 .f32) (x1 : FVec Ideal S10000x129 .bf16) (p : Fin 400) (c : Fin 129) :
    prod x0 x1 (ix2 p c) = ∑ l : Fin 10000, x0 (ix2 p l) * x1 (ix2 l c) := by
  unfold prod
  rw [shapeCast_self]
  exact Cert.PlainDot.matmul_zero_apply dot_S400x10000_S10000x129_S400x129_1_0_0_1_n_n rfl none _ _ p c

/-- The neighbour sums divided by the floored degree. -/
def mean (x0 : FVec Ideal S400x10000 .f32) (x1 : FVec Ideal S10000x129 .bf16) : FVec Ideal S400x128 .f32 :=
  divf (extractStridedSlice S400x128 ![0, 0] (prod x0 x1) slices_S400x129_o0_0_S400x128)
    (broadcastTo S400x128
      (maximumf (broadcast S400x1 (Scalar.ofBits .f32 0x358637BD#32 : Ideal .f32))
        (extractStridedSlice S400x1 ![0, 128] (prod x0 x1) slices_S400x129_o0_128_S400x1))
      broadcasts_S400x1_S400x128)

/-- Entry `(p, k)` of the means: column `k` of the product over the floored column 128. -/
theorem mean_apply (x0 : FVec Ideal S400x10000 .f32) (x1 : FVec Ideal S10000x129 .bf16) (p : Fin 400) (k : Fin 128) :
    mean x0 x1 (ix2 p k)
      = Ideal.div (∑ l : Fin 10000, x0 (ix2 p l) * x1 (ix2 l (⟨k.val, by have := k.isLt; omega⟩ : Fin 129)))
          (max Sage.floorDeg (∑ l : Fin 10000, x0 (ix2 p l) * x1 (ix2 l (⟨128, by omega⟩ : Fin 129)))) := by
  show Ideal.div (extractStridedSlice S400x128 ![0, 0] (prod x0 x1) slices_S400x129_o0_0_S400x128 (ix2 p k))
      (broadcastTo S400x128
        (maximumf (broadcast S400x1 (Scalar.ofBits .f32 0x358637BD#32 : Ideal .f32))
          (extractStridedSlice S400x1 ![0, 128] (prod x0 x1) slices_S400x129_o0_128_S400x1))
        broadcasts_S400x1_S400x128 (ix2 p k)) = _
  rw [Cert.MatLayout.slice2_apply ![0, 0] (prod x0 x1) slices_S400x129_o0_0_S400x128 p k p
      (⟨k.val, by have := k.isLt; omega⟩ : Fin 129) (by simp) (by simp),
    Cert.MatLayout.colBcast_apply]
  show Ideal.div _ (max (Ideal.ofBits .f32 0x358637BD#32)
      (extractStridedSlice S400x1 ![0, 128] (prod x0 x1) slices_S400x129_o0_128_S400x1 (ix2 p (0 : Fin 1)))) = _
  rw [Cert.MatLayout.slice2_apply ![0, 128] (prod x0 x1) slices_S400x129_o0_128_S400x1 p (0 : Fin 1) p
      (⟨128, by omega⟩ : Fin 129) (by simp) (by simp),
    prod_apply, prod_apply]
  rfl

/-- The layer's entry before any activation: own rows times the upper weights, means times the lower, plus the bias. -/
def pre (x0 : FVec Ideal S400x10000 .f32) (x1 : FVec Ideal S10000x129 .bf16) (xs : FVec Ideal S400x128 .f32)
    (x3 x4 : FVec Ideal S128x128 .f32) (x5 : FVec Ideal S1x128 .f32) : FVec Ideal S400x128 .f32 :=
  addf
    (addf
      (matmul dot_S400x128_S128x128_S400x128_1_0_0_1_n_n (some .fp32) xs
        (shapeCast S128x128 x3 shapeCasts_S128x128_S128x128) (constant S400x128 .f32 0x00000000#32))
      (matmul dot_S400x128_S128x128_S400x128_1_0_0_1_n_n (some .fp32) (mean x0 x1)
        (shapeCast S128x128 x4 shapeCasts_S128x128_S128x128) (constant S400x128 .f32 0x00000000#32)))
    (broadcastTo S400x128 (shapeCast S1x128 x5 shapeCasts_S1x128_S1x128) broadcasts_S1x128_S400x128)

/-- Entry `(p, q)` of the body's result is the row form of the layer on the loaded blocks. -/
theorem pre_apply (x0 : FVec Ideal S400x10000 .f32) (x1 : FVec Ideal S10000x129 .bf16) (xs : FVec Ideal S400x128 .f32)
    (x3 x4 : FVec Ideal S128x128 .f32) (x5 : FVec Ideal S1x128 .f32) (p : Fin 400) (q : Fin 128) :
    pre x0 x1 xs x3 x4 x5 (ix2 p q) = Sage.rowFn x0 x1 xs x3 x4 x5 p q := by
  unfold pre Sage.rowFn
  rw [shapeCast_self, shapeCast_self, shapeCast_self, addf_apply, addf_apply,
    Cert.PlainDot.matmul_zero_apply dot_S400x128_S128x128_S400x128_1_0_0_1_n_n rfl (some .fp32) xs x3 p q,
    Cert.PlainDot.matmul_zero_apply dot_S400x128_S128x128_S400x128_1_0_0_1_n_n rfl (some .fp32) (mean x0 x1) x4 p q,
    broadcastTo_1b_ab_apply]
  simp only [mean_apply]

/-- The first call's activation: the larger of the entry and zero. -/
def act0 (x : EReal) : EReal := max x (Ideal.ofBits .f32 0x00000000#32)
/-- The second call has none. -/
def act1 (x : EReal) : EReal := x

/-- The first call's stored value at `(p, q)`. -/
theorem pay0_apply (x0 : FVec Ideal S400x10000 .f32) (x1 : FVec Ideal S10000x129 .bf16) (x2 : FVec Ideal S400x128 .f32)
    (x3 x4 : FVec Ideal S128x128 .f32) (x5 : FVec Ideal S1x128 .f32) (p : Fin 400) (q : Fin 128) :
    k0_pay1 (F := Ideal) x0 x1 x2 x3 x4 x5 (ix2 p q) = act0 (Sage.rowFn x0 x1 x2 x3 x4 x5 p q) := by
  show max (pre x0 x1 x2 x3 x4 x5 (ix2 p q)) (Ideal.ofBits .f32 0x00000000#32) = _
  rw [pre_apply]
  rfl

/-- The second call's stored value at `(p, q)`. -/
theorem pay1_apply (x0 : FVec Ideal S400x10000 .f32) (x1 : FVec Ideal S10000x129 .bf16) (x2 : FVec Ideal S400x128 .f32)
    (x3 x4 : FVec Ideal S128x128 .f32) (x5 : FVec Ideal S1x128 .f32) (p : Fin 400) (q : Fin 128) :
    k1_pay1 (F := Ideal) x0 x1 x2 x3 x4 x5 (ix2 p q) = act1 (Sage.rowFn x0 x1 x2 x3 x4 x5 p q) := by
  show pre x0 x1 (shapeCast S400x128 x2 shapeCasts_S400x128_S400x128) x3 x4 x5 (ix2 p q) = _
  rw [shapeCast_self, pre_apply]
  rfl

end Cert.KernelIdeal.Body

end
-- ==== Proof.Layer0.lean ====
/-
  The first pallas_call as a value: what its result array holds when the region ends, whatever the buffers hold
  when it is entered (`V`).

  The grid has 25 points; point `t` works on rows `400·t .. 400·t + 399`: its adjacency block and its own-rows block are
  those rows of their arrays, the widened features, the two weight tables and the bias row are whole at every point,
  and its result block is those rows of the result array. So the block point `t` writes back is rows `400·t ..` of ONE
  function of the arrays, `G`: entry `(i, j)` is the activation of the layer's row form `Sage.rowFn` on the whole
  arrays, because a row of `rowFn` reads the adjacency and the own rows only in that row. Row `i` lies in point
  `i / 400`'s block, so the 25 blocks cover the array and the array ends at `G`.
-/
import proofs.«166561_g21534966022541_cont_8to1_1342_2_alg».proof.Proof.Gen.KernelIdeal.Frame
import proofs.«166561_g21534966022541_cont_8to1_1342_2_alg».proof.Proof.Body

set_option maxRecDepth 16384

noncomputable section

namespace Cert.KernelIdeal.Layer0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays the region reads, each at its literal type -/

abbrev adjArr (c : Dev nD) : FVec Ideal S10000x10000 .f32 := V c main_arg1
abbrev wideArr (c : Dev nD) : FVec Ideal S10000x129 .bf16 := V c main_v2
abbrev ownArr (c : Dev nD) : FVec Ideal S10000x128 .f32 := V c main_arg0
abbrev upArr (c : Dev nD) : FVec Ideal S128x128 .f32 := V c main_v3
abbrev lowArr (c : Dev nD) : FVec Ideal S128x128 .f32 := V c main_v4
abbrev biasArr (c : Dev nD) : FVec Ideal S1x128 .f32 := V c main_v5

/-- What the region leaves in its result array, entry by entry, of the arrays it finds. -/
def G (c : Dev nD) : FVec Ideal S10000x128 .f32 := fun y =>
  act0 (Sage.rowFn (n := 10000) (adjArr V c) (wideArr V c) (ownArr V c) (upArr V c) (lowArr V c) (biasArr V c) (y 0) (y 1))

theorem hz : (![0, 0] : Fin 2 → Nat) = fun _ => 0 := funext fun a => by fin_cases a <;> rfl

/-! ## The printed index maps over the grid -/

theorem idx_rows : ∀ t : Fin cfg0.N, win0_0.index t (0 : Fin 2) = t.val ∧ win0_0.index t (1 : Fin 2) = 0
    ∧ win0_2.index t (0 : Fin 2) = t.val ∧ win0_2.index t (1 : Fin 2) = 0
    ∧ win0_6.index t (0 : Fin 2) = t.val ∧ win0_6.index t (1 : Fin 2) = 0 :=
  (by decide +kernel : ∀ t : Fin grid0.N, _)

theorem idx_whole : ∀ t : Fin cfg0.N, win0_1.index t (0 : Fin 2) = 0 ∧ win0_1.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Each window's block at a point, read off its array -/

/-- The adjacency block's row `p` is row `400·t + p` of the adjacency. -/
theorem blk_adj (c : Dev nD) (t : Fin cfg0.N) (p : Fin 400) (l : Fin 10000) (i : Fin 10000) (hi : i.val = t.val * 400 + p.val) :
    iblk0 V c 0 t (ix2 p l) = adjArr V c (ix2 i l) := by
  show V c main_arg1 (((cfg0.win 0).blk t).view.emb (ix2 p l)) = V c main_arg1 (ix2 i l)
  obtain ⟨e0, e1, -⟩ := idx_rows t
  refine congrArg _ (funext fun a => Fin.ext ?_)
  match a with
  | ⟨0, _⟩ => show win0_0.index t (0 : Fin 2) * 400 + 1 * p.val = i.val; rw [e0, hi]; omega
  | ⟨1, _⟩ => show win0_0.index t (1 : Fin 2) * 10000 + 1 * l.val = l.val; rw [e1]; omega

/-- The own-rows block's row `p` is row `400·t + p` of its array. -/
theorem blk_own (c : Dev nD) (t : Fin cfg0.N) (p : Fin 400) (k : Fin 128) (i : Fin 10000) (hi : i.val = t.val * 400 + p.val) :
    iblk0 V c 2 t (ix2 p k) = ownArr V c (ix2 i k) := by
  show V c main_arg0 (((cfg0.win 2).blk t).view.emb (ix2 p k)) = V c main_arg0 (ix2 i k)
  obtain ⟨-, -, e0, e1, -⟩ := idx_rows t
  refine congrArg _ (funext fun a => Fin.ext ?_)
  match a with
  | ⟨0, _⟩ => show win0_2.index t (0 : Fin 2) * 400 + 1 * p.val = i.val; rw [e0, hi]; omega
  | ⟨1, _⟩ => show win0_2.index t (1 : Fin 2) * 128 + 1 * k.val = k.val; rw [e1]; omega

/-- The widened features are whole at every point. -/
theorem blk_wide (c : Dev nD) (t : Fin cfg0.N) (l : Fin 10000) (k : Fin 129) :
    iblk0 V c 1 t (ix2 l k) = wideArr V c (ix2 l k) := by
  show V c main_v2 (((cfg0.win 1).blk t).view.emb (ix2 l k)) = V c main_v2 (ix2 l k)
  obtain ⟨e0, e1, -⟩ := idx_whole t
  refine congrArg _ (funext fun a => Fin.ext ?_)
  match a with
  | ⟨0, _⟩ => show win0_1.index t (0 : Fin 2) * 10000 + 1 * l.val = l.val; rw [e0]; omega
  | ⟨1, _⟩ => show win0_1.index t (1 : Fin 2) * 129 + 1 * k.val = k.val; rw [e1]; omega

/-- So are the upper weights, -/
theorem blk_up (c : Dev nD) (t : Fin cfg0.N) (k q : Fin 128) :
    iblk0 V c 3 t (ix2 k q) = upArr V c (ix2 k q) := by
  show V c main_v3 (((cfg0.win 3).blk t).view.emb (ix2 k q)) = V c main_v3 (ix2 k q)
  obtain ⟨-, -, e0, e1, -⟩ := idx_whole t
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- the lower weights, -/
theorem blk_low (c : Dev nD) (t : Fin cfg0.N) (k q : Fin 128) :
    iblk0 V c 4 t (ix2 k q) = lowArr V c (ix2 k q) := by
  show V c main_v4 (((cfg0.win 4).blk t).view.emb (ix2 k q)) = V c main_v4 (ix2 k q)
  obtain ⟨-, -, -, -, e0, e1, -⟩ := idx_whole t
  refine congrArg _ (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- and the bias row. -/
theorem blk_bias (c : Dev nD) (t : Fin cfg0.N) (q : Fin 128) :
    iblk0 V c 5 t (ix2 (0 : Fin 1) q) = biasArr V c (ix2 (0 : Fin 1) q) := by
  show V c main_v5 (((cfg0.win 5).blk t).view.emb (ix2 (0 : Fin 1) q)) = V c main_v5 (ix2 (0 : Fin 1) q)
  obtain ⟨-, -, -, -, -, -, e0, e1⟩ := idx_whole t
  refine congrArg _ (funext fun a => Fin.ext ?_)
  match a with
  | ⟨0, _⟩ => show win0_5.index t (0 : Fin 2) * 1 + 1 * (0 : Fin 1).val = (0 : Fin 1).val; rw [e0]; rfl
  | ⟨1, _⟩ => show win0_5.index t (1 : Fin 2) * 128 + 1 * q.val = q.val; rw [e1]; omega

/-- Entry `(p, q)` of the result block at point `t` is entry `(400·t + p, q)` of the result array. -/
theorem emb_out (t : Fin cfg0.N) (p : Fin 400) (q : Fin 128) (i : Fin 10000) (hi : i.val = t.val * 400 + p.val) :
    ((cfg0.win 6).blk t).view.emb (ix2 p q) = ix2 i q := by
  obtain ⟨-, -, -, -, e0, e1⟩ := idx_rows t
  funext a; apply Fin.ext
  match a with
  | ⟨0, _⟩ => show win0_6.index t (0 : Fin 2) * 400 + 1 * p.val = i.val; rw [e0, hi]; omega
  | ⟨1, _⟩ => show win0_6.index t (1 : Fin 2) * 128 + 1 * q.val = q.val; rw [e1]; omega

/-! ## What a point writes back, the cover, the array -/

/-- What point `t` writes back is its block of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S400x10000) hz, View.ld_unit_zero (S := S10000x129) hz,
    View.ld_unit_zero (S := S400x128) hz, View.ld_unit_zero (S := S128x128) hz, View.ld_unit_zero (S := S1x128) hz]
  funext j
  obtain ⟨p, q, rfl⟩ : ∃ (p : Fin 400) (q : Fin 128), j = ix2 p q := ⟨j 0, j 1, eq_ix2 (n0 := 400) (n1 := 128) j⟩
  have ht : t.val < 25 := t.isLt
  obtain ⟨i, hi⟩ : ∃ i : Fin 10000, i.val = t.val * 400 + p.val :=
    ⟨⟨t.val * 400 + p.val, by have := p.isLt; omega⟩, rfl⟩
  show k0_pay1 (F := Ideal) (iblk0 V c 0 t) (iblk0 V c 1 t) (iblk0 V c 2 t) (iblk0 V c 3 t) (iblk0 V c 4 t) (iblk0 V c 5 t) (ix2 p q)
    = G V c (((cfg0.win 6).blk t).view.emb (ix2 p q))
  rw [emb_out t p q i hi]
  refine (pay0_apply (iblk0 V c 0 t) (iblk0 V c 1 t) (iblk0 V c 2 t) (iblk0 V c 3 t) (iblk0 V c 4 t) (iblk0 V c 5 t) p q).trans ?_
  show act0 _ = act0 (Sage.rowFn (n := 10000) (adjArr V c) (wideArr V c) (ownArr V c) (upArr V c) (lowArr V c) (biasArr V c) i q)
  exact congrArg act0 (Sage.rowFn_congr (adjArr V c) (iblk0 V c 0 t) (wideArr V c) (iblk0 V c 1 t) (ownArr V c) (iblk0 V c 2 t)
    (upArr V c) (iblk0 V c 3 t) (lowArr V c) (iblk0 V c 4 t) (biasArr V c) (iblk0 V c 5 t) p i q
    (fun l => blk_adj V c t p l i hi) (fun l k => blk_wide V c t l k) (fun k => blk_own V c t p k i hi)
    (fun k q => blk_up V c t k q) (fun k q => blk_low V c t k q) (fun q => blk_bias V c t q))

/-- An index of the result array is in point `t`'s block iff each coordinate is in the block's range. -/
theorem mem_blk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v6).slice (win0_6.rect t)).set ↔ _
  rw [View.set_slice_whole, Rect.mem_set_unit]
  exact Iff.rfl

/-- Row `i` is in point `i / 400`'s block: the 25 blocks cover the array. -/
theorem cover (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  obtain ⟨t, ht⟩ : ∃ t : Fin cfg0.N, t.val = (i 0).val / 400 := ⟨⟨(i 0).val / 400, by show (i 0).val / 400 < 25; omega⟩, rfl⟩
  obtain ⟨-, -, -, -, e0, e1⟩ := idx_rows t
  refine ⟨t, flush0_6 t, ?_⟩
  rw [mem_blk]
  intro a
  match a with
  | ⟨0, _⟩ => show win0_6.index t (0 : Fin 2) * 400 ≤ (i 0).val ∧ (i 0).val < win0_6.index t (0 : Fin 2) * 400 + 400; rw [e0, ht]; omega
  | ⟨1, _⟩ => show win0_6.index t (1 : Fin 2) * 128 ≤ (i 1).val ∧ (i 1).val < win0_6.index t (1 : Fin 2) * 128 + 128; rw [e1]; omega

/-- THE ARRAY when the region ends. -/
theorem final (c : Dev nD) : (dat0 V c).arrAt 6 cfg0.N = G V c :=
  (dat0 V c).arrAt_eq_of_cover 6 (G V c) (fun t _ => flushed_eq V c t) cover

end Cert.KernelIdeal.Layer0

end
-- ==== Proof.Layer1.lean ====
/- The second pallas_call as a value, laid out from the first's text: the same 25 row blocks, with its own arrays (the first call's result as its own rows) and no activation. -/
import proofs.«166561_g21534966022541_cont_8to1_1342_2_alg».proof.Proof.Gen.KernelIdeal.Frame
import proofs.«166561_g21534966022541_cont_8to1_1342_2_alg».proof.Proof.Body

set_option maxRecDepth 16384

noncomputable section

namespace Cert.KernelIdeal.Layer1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The arrays the region reads, each at its literal type -/

abbrev adjArr (c : Dev nD) : FVec Ideal S10000x10000 .f32 := V c main_arg1
abbrev wideArr (c : Dev nD) : FVec Ideal S10000x129 .bf16 := V c main_v9
abbrev ownArr (c : Dev nD) : FVec Ideal S10000x128 .f32 := V c main_v6
abbrev upArr (c : Dev nD) : FVec Ideal S128x128 .f32 := V c main_v10
abbrev lowArr (c : Dev nD) : FVec Ideal S128x128 .f32 := V c main_v11
abbrev biasArr (c : Dev nD) : FVec Ideal S1x128 .f32 := V c main_v12

/-- What the region leaves in its result array, entry by entry, of the arrays it finds. -/
def G (c : Dev nD) : FVec Ideal S10000x128 .f32 := fun y =>
  act1 (Sage.rowFn (n := 10000) (adjArr V c) (wideArr V c) (ownArr V c) (upArr V c) (lowArr V c) (biasArr V c) (y 0) (y 1))

theorem hz : (![0, 0] : Fin 2 → Nat) = fun _ => 0 := funext fun a => by fin_cases a <;> rfl

/-! ## The printed index maps over the grid -/

theorem idx_rows : ∀ t : Fin cfg1.N, win1_0.index t (0 : Fin 2) = t.val ∧ win1_0.index t (1 : Fin 2) = 0
    ∧ win1_2.index t (0 : Fin 2) = t.val ∧ win1_2.index t (1 : Fin 2) = 0
    ∧ win1_6.index t (0 : Fin 2) = t.val ∧ win1_6.index t (1 : Fin 2) = 0 :=
  (by decide +kernel : ∀ t : Fin grid1.N, _)

theorem idx_whole : ∀ t : Fin cfg1.N, win1_1.index t (0 : Fin 2) = 0 ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## Each window's block at a point, read off its array -/

/-- The adjacency block's row `p` is row `400·t + p` of the adjacency. -/
theorem blk_adj (c : Dev nD) (t : Fin cfg1.N) (p : Fin 400) (l : Fin 10000) (i : Fin 10000) (hi : i.val = t.val * 400 + p.val) :
    iblk1 V c 0 t (ix2 p l) = adjArr V c (ix2 i l) := by
  show V c main_arg1 (((cfg1.win 0).blk t).view.emb (ix2 p l)) = V c main_arg1 (ix2 i l)
  obtain ⟨e0, e1, -⟩ := idx_rows t
  refine congrArg _ (funext fun a => Fin.ext ?_)
  match a with
  | ⟨0, _⟩ => show win1_0.index t (0 : Fin 2) * 400 + 1 * p.val = i.val; rw [e0, hi]; omega
  | ⟨1, _⟩ => show win1_0.index t (1 : Fin 2) * 10000 + 1 * l.val = l.val; rw [e1]; omega

/-- The own-rows block's row `p` is row `400·t + p` of its array. -/
theorem blk_own (c : Dev nD) (t : Fin cfg1.N) (p : Fin 400) (k : Fin 128) (i : Fin 10000) (hi : i.val = t.val * 400 + p.val) :
    iblk1 V c 2 t (ix2 p k) = ownArr V c (ix2 i k) := by
  show V c main_v6 (((cfg1.win 2).blk t).view.emb (ix2 p k)) = V c main_v6 (ix2 i k)
  obtain ⟨-, -, e0, e1, -⟩ := idx_rows t
  refine congrArg _ (funext fun a => Fin.ext ?_)
  match a with
  | ⟨0, _⟩ => show win1_2.index t (0 : Fin 2) * 400 + 1 * p.val = i.val; rw [e0, hi]; omega
  | ⟨1, _⟩ => show win1_2.index t (1 : Fin 2) * 128 + 1 * k.val = k.val; rw [e1]; omega

/-- The widened features are whole at every point. -/
theorem blk_wide (c : Dev nD) (t : Fin cfg1.N) (l : Fin 10000) (k : Fin 129) :
    iblk1 V c 1 t (ix2 l k) = wideArr V c (ix2 l k) := by
  show V c main_v9 (((cfg1.win 1).blk t).view.emb (ix2 l k)) = V c main_v9 (ix2 l k)
  obtain ⟨e0, e1, -⟩ := idx_whole t
  refine congrArg _ (funext fun a => Fin.ext ?_)
  match a with
  | ⟨0, _⟩ => show win1_1.index t (0 : Fin 2) * 10000 + 1 * l.val = l.val; rw [e0]; omega
  | ⟨1, _⟩ => show win1_1.index t (1 : Fin 2) * 129 + 1 * k.val = k.val; rw [e1]; omega

/-- So are the upper weights, -/
theorem blk_up (c : Dev nD) (t : Fin cfg1.N) (k q : Fin 128) :
    iblk1 V c 3 t (ix2 k q) = upArr V c (ix2 k q) := by
  show V c main_v10 (((cfg1.win 3).blk t).view.emb (ix2 k q)) = V c main_v10 (ix2 k q)
  obtain ⟨-, -, e0, e1, -⟩ := idx_whole t
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- the lower weights, -/
theorem blk_low (c : Dev nD) (t : Fin cfg1.N) (k q : Fin 128) :
    iblk1 V c 4 t (ix2 k q) = lowArr V c (ix2 k q) := by
  show V c main_v11 (((cfg1.win 4).blk t).view.emb (ix2 k q)) = V c main_v11 (ix2 k q)
  obtain ⟨-, -, -, -, e0, e1, -⟩ := idx_whole t
  refine congrArg _ (funext fun a => Fin.ext ?_)
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- and the bias row. -/
theorem blk_bias (c : Dev nD) (t : Fin cfg1.N) (q : Fin 128) :
    iblk1 V c 5 t (ix2 (0 : Fin 1) q) = biasArr V c (ix2 (0 : Fin 1) q) := by
  show V c main_v12 (((cfg1.win 5).blk t).view.emb (ix2 (0 : Fin 1) q)) = V c main_v12 (ix2 (0 : Fin 1) q)
  obtain ⟨-, -, -, -, -, -, e0, e1⟩ := idx_whole t
  refine congrArg _ (funext fun a => Fin.ext ?_)
  match a with
  | ⟨0, _⟩ => show win1_5.index t (0 : Fin 2) * 1 + 1 * (0 : Fin 1).val = (0 : Fin 1).val; rw [e0]; rfl
  | ⟨1, _⟩ => show win1_5.index t (1 : Fin 2) * 128 + 1 * q.val = q.val; rw [e1]; omega

/-- Entry `(p, q)` of the result block at point `t` is entry `(400·t + p, q)` of the result array. -/
theorem emb_out (t : Fin cfg1.N) (p : Fin 400) (q : Fin 128) (i : Fin 10000) (hi : i.val = t.val * 400 + p.val) :
    ((cfg1.win 6).blk t).view.emb (ix2 p q) = ix2 i q := by
  obtain ⟨-, -, -, -, e0, e1⟩ := idx_rows t
  funext a; apply Fin.ext
  match a with
  | ⟨0, _⟩ => show win1_6.index t (0 : Fin 2) * 400 + 1 * p.val = i.val; rw [e0, hi]; omega
  | ⟨1, _⟩ => show win1_6.index t (1 : Fin 2) * 128 + 1 * q.val = q.val; rw [e1]; omega

/-! ## What a point writes back, the cover, the array -/

/-- What point `t` writes back is its block of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S400x10000) hz, View.ld_unit_zero (S := S10000x129) hz,
    View.ld_unit_zero (S := S400x128) hz, View.ld_unit_zero (S := S128x128) hz, View.ld_unit_zero (S := S1x128) hz]
  funext j
  obtain ⟨p, q, rfl⟩ : ∃ (p : Fin 400) (q : Fin 128), j = ix2 p q := ⟨j 0, j 1, eq_ix2 (n0 := 400) (n1 := 128) j⟩
  have ht : t.val < 25 := t.isLt
  obtain ⟨i, hi⟩ : ∃ i : Fin 10000, i.val = t.val * 400 + p.val :=
    ⟨⟨t.val * 400 + p.val, by have := p.isLt; omega⟩, rfl⟩
  show k1_pay1 (F := Ideal) (iblk1 V c 0 t) (iblk1 V c 1 t) (iblk1 V c 2 t) (iblk1 V c 3 t) (iblk1 V c 4 t) (iblk1 V c 5 t) (ix2 p q)
    = G V c (((cfg1.win 6).blk t).view.emb (ix2 p q))
  rw [emb_out t p q i hi]
  refine (pay1_apply (iblk1 V c 0 t) (iblk1 V c 1 t) (iblk1 V c 2 t) (iblk1 V c 3 t) (iblk1 V c 4 t) (iblk1 V c 5 t) p q).trans ?_
  show act1 _ = act1 (Sage.rowFn (n := 10000) (adjArr V c) (wideArr V c) (ownArr V c) (upArr V c) (lowArr V c) (biasArr V c) i q)
  exact congrArg act1 (Sage.rowFn_congr (adjArr V c) (iblk1 V c 0 t) (wideArr V c) (iblk1 V c 1 t) (ownArr V c) (iblk1 V c 2 t)
    (upArr V c) (iblk1 V c 3 t) (lowArr V c) (iblk1 V c 4 t) (biasArr V c) (iblk1 V c 5 t) p i q
    (fun l => blk_adj V c t p l i hi) (fun l k => blk_wide V c t l k) (fun k => blk_own V c t p k i hi)
    (fun k q => blk_up V c t k q) (fun k q => blk_low V c t k q) (fun q => blk_bias V c t q))

/-- An index of the result array is in point `t`'s block iff each coordinate is in the block's range. -/
theorem mem_blk (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_v13).slice (win1_6.rect t)).set ↔ _
  rw [View.set_slice_whole, Rect.mem_set_unit]
  exact Iff.rfl

/-- Row `i` is in point `i / 400`'s block: the 25 blocks cover the array. -/
theorem cover (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  obtain ⟨t, ht⟩ : ∃ t : Fin cfg1.N, t.val = (i 0).val / 400 := ⟨⟨(i 0).val / 400, by show (i 0).val / 400 < 25; omega⟩, rfl⟩
  obtain ⟨-, -, -, -, e0, e1⟩ := idx_rows t
  refine ⟨t, flush1_6 t, ?_⟩
  rw [mem_blk]
  intro a
  match a with
  | ⟨0, _⟩ => show win1_6.index t (0 : Fin 2) * 400 ≤ (i 0).val ∧ (i 0).val < win1_6.index t (0 : Fin 2) * 400 + 400; rw [e0, ht]; omega
  | ⟨1, _⟩ => show win1_6.index t (1 : Fin 2) * 128 ≤ (i 1).val ∧ (i 1).val < win1_6.index t (1 : Fin 2) * 128 + 128; rw [e1]; omega

/-- THE ARRAY when the region ends. -/
theorem final (c : Dev nD) : (dat1 V c).arrAt 6 cfg1.N = G V c :=
  (dat1 V c).arrAt_eq_of_cover 6 (G V c) (fun t _ => flushed_eq V c t) cover

end Cert.KernelIdeal.Layer1

end
-- ==== Proof.LibRowLayout.lean ====
/-
  Layout operations of a ROW-BLOCKED kernel read at an index given by coordinates, for any number of rows `n`.

  A kernel that works on a block of `n` batch rows meets the same few compositions again and again; each lemma here
  reads one of them at an index written `ix1 … ix3`, so that it applies to a printed payload by unification, whatever
  `n` is (the kernel's block has 1024 rows, an array 16384; nothing here depends on it):
  * a per-row column of scalars `[n, a]` given a trailing unit axis and broadcast along it to `[n, a, b]`
    (`x[:, :, None]` against an `[n, a, b]` operand): `colBcast3_apply`;
  * a table `[a, b]` given a leading unit axis and broadcast over the rows to `[n, a, b]` (`w[None, :, :]`):
    `rowBcast3_apply`; a vector `[b]` broadcast over the rows to `[n, b]`: `rowBcast2_apply`;
  * `[n, a, c]` flattened to `[n, a · c]` (`.reshape(n, -1)`): position `k = f · c + e` of row `y` is the
    operand at `(y, f, e)`: `flatten_apply`;
  * two blocks `[n, p]`, `[n, q]` joined along the columns: `concatCols_apply`, the left block below column `p`, the
    right block from it on;
  * a sum over the columns of `[n, K]`, and over the middle axis of `[n, a, b]`, at the ideal values, as `Fin`-indexed
    sums over coordinates: `sumCols_apply`, `sumMid_apply`.
-/
import Idealize.ShloMosaic.Lib.ValueLayout
import Idealize.ShloMosaic.PureOps.Ideal.Laws

namespace Cert.RowLayout

open Idealize.ShloMosaic Idealize.ShloMosaic.ValueIdx

variable {α : Type}

/-- `x[:, :, None]` broadcast to `[n, a, b]`, read at `(y, f, e)`, is `x` at `(y, f)`. -/
theorem colBcast3_apply {n a b : ℕ} (x : (⟨2, ![n, a]⟩ : Shape).Idx → α)
    (h1 : (⟨2, ![n, a]⟩ : Shape).ShapeCasts ⟨3, ![n, a, 1]⟩)
    (h2 : (⟨3, ![n, a, 1]⟩ : Shape).Broadcasts ⟨3, ![n, a, b]⟩) (y : Fin n) (f : Fin a) (e : Fin b) :
    broadcastTo ⟨3, ![n, a, b]⟩ (shapeCast ⟨3, ![n, a, 1]⟩ x h1) h2 (ix3 y f e) = x (ix2 y f) := by
  refine (broadcastTo_apply _ h2 (ix3 y f e) (ix3 y f (0 : Fin 1)) fun ax => ?_).trans ?_
  · match ax with
    | ⟨0, _⟩ =>
      show y.val = if n = 1 then 0 else y.val
      split
      · have := y.isLt; omega
      · rfl
    | ⟨1, _⟩ =>
      show f.val = if a = 1 then 0 else f.val
      split
      · have := f.isLt; omega
      · rfl
    | ⟨2, _⟩ => rfl
  · exact shapeCast_apply x h1 _ _ (by
      rw [Shape.rowMajor_val_two, Shape.rowMajor_val_three]
      show y.val * a + f.val = (y.val * a + f.val) * 1 + 0
      omega)

/-- `w[None, :, :]` broadcast to `[n, a, b]`, read at `(y, f, e)`, is `w` at `(f, e)`. -/
theorem rowBcast3_apply {n a b : ℕ} (w : (⟨2, ![a, b]⟩ : Shape).Idx → α)
    (h1 : (⟨2, ![a, b]⟩ : Shape).ShapeCasts ⟨3, ![1, a, b]⟩)
    (h2 : (⟨3, ![1, a, b]⟩ : Shape).Broadcasts ⟨3, ![n, a, b]⟩) (y : Fin n) (f : Fin a) (e : Fin b) :
    broadcastTo ⟨3, ![n, a, b]⟩ (shapeCast ⟨3, ![1, a, b]⟩ w h1) h2 (ix3 y f e) = w (ix2 f e) := by
  refine (broadcastTo_apply _ h2 (ix3 y f e) (ix3 (0 : Fin 1) f e) fun ax => ?_).trans
    (shapeCast_ab_1ab_apply w h1 0 f e)
  match ax with
  | ⟨0, _⟩ => rfl
  | ⟨1, _⟩ =>
    show f.val = if a = 1 then 0 else f.val
    split
    · have := f.isLt; omega
    · rfl
  | ⟨2, _⟩ =>
    show e.val = if b = 1 then 0 else e.val
    split
    · have := e.isLt; omega
    · rfl

/-- A vector `[b]` broadcast over the rows to `[n, b]`, read at `(y, j)`, is the vector at `j`. -/
theorem rowBcast2_apply {n b : ℕ} (v : (⟨1, ![b]⟩ : Shape).Idx → α)
    (h1 : (⟨1, ![b]⟩ : Shape).ShapeCasts ⟨2, ![1, b]⟩)
    (h2 : (⟨2, ![1, b]⟩ : Shape).Broadcasts ⟨2, ![n, b]⟩) (y : Fin n) (j : Fin b) :
    broadcastTo ⟨2, ![n, b]⟩ (shapeCast ⟨2, ![1, b]⟩ v h1) h2 (ix2 y j) = v (ix1 j) :=
  (broadcastTo_1b_ab_apply _ h2 y j).trans (shapeCast_a_1a_apply v h1 0 j)

/-- `[n, a, c]` flattened to `[n, m]`, `m = a · c`: position `k = f · c + e` of row `y` is the operand at `(y, f, e)`. -/
theorem flatten_apply {n a c m : ℕ} (x : (⟨3, ![n, a, c]⟩ : Shape).Idx → α)
    (h : (⟨3, ![n, a, c]⟩ : Shape).ShapeCasts ⟨2, ![n, m]⟩) (hm : m = a * c)
    (y : Fin n) (k : Fin m) (f : Fin a) (e : Fin c) (hk : k.val = f.val * c + e.val) :
    shapeCast ⟨2, ![n, m]⟩ x h (ix2 y k) = x (ix3 y f e) :=
  shapeCast_apply x h _ _ (by
    rw [Shape.rowMajor_val_three, Shape.rowMajor_val_two]
    show (y.val * a + f.val) * c + e.val = y.val * m + k.val
    rw [hk, hm]; ring)

/-- Two blocks joined along the columns: below column `p` the left block, from `p` on the right block `p` columns back. -/
theorem concatCols_apply {n p q m : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, m]⟩ 1) (hm : m = p + q)
    (y : Fin n) (k : Fin m) :
    concatenate ⟨2, ![n, m]⟩ 1 [⟨⟨2, ![n, p]⟩, x₁⟩, ⟨⟨2, ![n, q]⟩, x₂⟩] h (ix2 y k)
      = if hk : k.val < p then x₁ (ix2 y ⟨k.val, hk⟩) else x₂ (ix2 y ⟨k.val - p, by have := k.isLt; omega⟩) := by
  by_cases hk : k.val < p
  · rw [dif_pos hk]
    exact concatenate_pair_apply_left (1 : Fin 2) x₁ x₂ h (ix2 y k) rfl (ix2 y ⟨k.val, hk⟩) (fun b => by
      match b with
      | ⟨0, _⟩ => rfl
      | ⟨1, _⟩ => rfl)
  · rw [dif_neg hk]
    exact concatenate_pair_apply_right (1 : Fin 2) x₁ x₂ h (ix2 y k) rfl rfl
      (ix2 y ⟨k.val - p, by have := k.isLt; omega⟩) (fun b hb => by
        match b, hb with
        | ⟨0, _⟩, _ => rfl
        | ⟨1, _⟩, hb => exact absurd rfl hb)
      (by show (k.val - p) + p = k.val; omega)

variable {φ : FTy}

/-- A sum over the columns, at the ideal values: at row `y`, the sum over the column coordinate. -/
theorem sumCols_apply {n K : ℕ} (src : FVec Ideal ⟨2, ![n, K]⟩ φ) (acc : BitVec φ.bits)
    (h : (⟨2, ![n, K]⟩ : Shape).Reduces [1] ⟨1, ![n]⟩) (hφ : FKind.Formats φ) (hacc : acc = FKind.add.neutral φ hφ)
    (y : Fin n) :
    multiReduction .add [1] ⟨1, ![n]⟩ src acc h hφ hacc (ix1 y) = ∑ k : Fin K, src (ix2 y k) := by
  refine (Ideal.multiReduction_add_single src acc h hφ hacc (ix1 y)).trans ?_
  refine Finset.sum_congr rfl fun k _ => congrArg src (funext fun c => Fin.ext ?_)
  match c with
  | ⟨0, _⟩ => rfl
  | ⟨1, _⟩ => rfl

/-- A sum over the middle axis of `[n, a, b]`, at the ideal values: at `(y, e)`, the sum over the middle coordinate. -/
theorem sumMid_apply {n a b : ℕ} (src : FVec Ideal ⟨3, ![n, a, b]⟩ φ) (acc : BitVec φ.bits)
    (h : (⟨3, ![n, a, b]⟩ : Shape).Reduces [1] ⟨2, ![n, b]⟩) (hφ : FKind.Formats φ)
    (hacc : acc = FKind.add.neutral φ hφ) (y : Fin n) (e : Fin b) :
    multiReduction .add [1] ⟨2, ![n, b]⟩ src acc h hφ hacc (ix2 y e) = ∑ f : Fin a, src (ix3 y f e) := by
  refine (Ideal.multiReduction_add_single src acc h hφ hacc (ix2 y e)).trans ?_
  refine Finset.sum_congr rfl fun k _ => congrArg src (funext fun c => Fin.ext ?_)
  match c with
  | ⟨0, _⟩ => rfl
  | ⟨1, _⟩ => rfl
  | ⟨2, _⟩ => rfl

end Cert.RowLayout
-- ==== Proof.Glue.lean ====
/-
  What the host hands each pallas_call, as functions of the layer's inputs, and the layer's entry out of them.

  Before each call the host widens the features by a column of ones (`wideV`: the features, narrowed in format, which
  changes nothing on the extended reals, joined with a 10000 × 1 column of the word 0x3F80, the number one), cuts the
  weights into their upper and lower 128 rows (`upV`, `lowV`) and lays the bias as a one-row table (`biasV`).
  `kernelLayer_eq`: the device's row form on these tables is the layer's entry — the widened features' first 128
  columns are the features, column 128 is one, so the degree's `Σ_l A(i,l) · 1` is `Σ_l A(i,l)`.
-/
import proofs.«166561_g21534966022541_cont_8to1_1342_2_alg».proof.Proof.Gen.KernelIdeal
import proofs.«166561_g21534966022541_cont_8to1_1342_2_alg».proof.Proof.Spec
import proofs.«166561_g21534966022541_cont_8to1_1342_2_alg».proof.Proof.LibRowLayout
import proofs.«166561_g21534966022541_cont_8to1_1342_2_alg».proof.Proof.LibMatLayout
import Idealize.ShloMosaic.Lib.IdealHost
import Idealize.ShloMosaic.Lib.ValueLayout

noncomputable section

namespace Cert.KernelIdeal.Glue

open Cert.KernelIdeal Cert.KernelIdeal.Gen
open Idealize.ShloMosaic Idealize.ShloMosaic.ValueIdx

/-- The features widened by a column of ones. -/
def wideV (X : FVec Ideal S10000x128 .f32) : FVec Ideal S10000x129 .bf16 :=
  concatenate S10000x129 1
    [⟨S10000x128, (truncf .bf16 X bitsLt_bf16_f32 : FVec Ideal S10000x128 .bf16)⟩,
     ⟨S10000x1, (broadcastInDim S10000x1 ![] bcast_S_S10000x1 (constant S_ .bf16 0x3F80#16) : FVec Ideal S10000x1 .bf16)⟩]
    concatenates_S10000x128_S10000x1_S10000x129_d1

/-- The upper 128 rows of the weights. -/
def upV (W : FVec Ideal S256x128 .f32) : FVec Ideal S128x128 .f32 :=
  extractStridedSlice S128x128 ![0, 0] W slices_S256x128_S128x128_0_0

/-- The lower 128 rows of the weights. -/
def lowV (W : FVec Ideal S256x128 .f32) : FVec Ideal S128x128 .f32 :=
  extractStridedSlice S128x128 ![128, 0] W slices_S256x128_S128x128_128_0

/-- The bias as a one-row table. -/
def biasV (b : FVec Ideal S128 .f32) : FVec Ideal S1x128 .f32 :=
  shapeCast S1x128 b shapeCasts_S128_S1x128

/-- Below column 128 the widened features are the features. -/
theorem wideV_left (X : FVec Ideal S10000x128 .f32) (l : Fin 10000) (k : Fin 128) :
    wideV X (ix2 l (⟨k.val, by have := k.isLt; omega⟩ : Fin 129)) = X (ix2 l k) := by
  unfold wideV
  rw [Cert.RowLayout.concatCols_apply (truncf .bf16 X bitsLt_bf16_f32 : FVec Ideal S10000x128 .bf16)
      (broadcastInDim S10000x1 ![] bcast_S_S10000x1 (constant S_ .bf16 0x3F80#16) : FVec Ideal S10000x1 .bf16)
      concatenates_S10000x128_S10000x1_S10000x129_d1 rfl l _,
    dif_pos (show (⟨k.val, by have := k.isLt; omega⟩ : Fin 129).val < 128 from k.isLt)]
  rfl

/-- Column 128 is one. -/
theorem wideV_last (X : FVec Ideal S10000x128 .f32) (l : Fin 10000) :
    wideV X (ix2 l (⟨128, by omega⟩ : Fin 129)) = 1 := by
  unfold wideV
  rw [Cert.RowLayout.concatCols_apply (truncf .bf16 X bitsLt_bf16_f32 : FVec Ideal S10000x128 .bf16)
      (broadcastInDim S10000x1 ![] bcast_S_S10000x1 (constant S_ .bf16 0x3F80#16) : FVec Ideal S10000x1 .bf16)
      concatenates_S10000x128_S10000x1_S10000x129_d1 rfl l _,
    dif_neg (show ¬ (⟨128, by omega⟩ : Fin 129).val < 128 from by show ¬ 128 < 128; omega),
    broadcastInDim_scalar_apply]
  show Ideal.ofBits .bf16 0x3F80#16 = 1
  exact Ideal.ofBits_one_bf16

/-- The device's row form on the host's tables is the layer's entry. -/
theorem kernelLayer_eq (A : FVec Ideal S10000x10000 .f32) (X : FVec Ideal S10000x128 .f32) (W : FVec Ideal S256x128 .f32)
    (b : FVec Ideal S128 .f32) (i : Fin 10000) (j : Fin 128) :
    Sage.rowFn (n := 10000) A (wideV X) X (upV W) (lowV W) (biasV b) i j = Sage.layerAt A X W b i j :=
  Sage.rowFn_eq_layerAt A X W b (wideV X) (upV W) (lowV W) (biasV b)
    (fun l k => wideV_left X l k) (fun l => wideV_last X l)
    (fun k q => Cert.MatLayout.slice2_apply ![0, 0] W slices_S256x128_S128x128_0_0 k q
      (⟨k.val, by have := k.isLt; omega⟩ : Fin 256) q (by simp) (by simp))
    (fun k q => Cert.MatLayout.slice2_apply ![128, 0] W slices_S256x128_S128x128_128_0 k q
      (⟨128 + k.val, by have := k.isLt; omega⟩ : Fin 256) q (by simp) (by simp))
    (fun q => shapeCast_a_1a_apply b shapeCasts_S128_S1x128 0 q) i j

end Cert.KernelIdeal.Glue

end
-- ==== Proof.Values.lean ====
/-
  The kernel program's run as a value: its result array ends at the specification's two layers of the arguments.

  At the first call's entry the host has written the widened features, the two halves of the first weights and the first
  bias row; the adjacency and the features are as launched. So the first call's array ends at `Sage.layerRelu` of the
  arguments (`first_value`). The first call leaves every other buffer as it found it and its own input arrays unchanged,
  the second host stretch writes the same tables from the first call's result, the second weights and the second bias, so
  the second call's array ends at `Sage.layer` of the adjacency, the first result, the second weights and bias
  (`second_value`), and that array is the program's result.
-/
import proofs.«166561_g21534966022541_cont_8to1_1342_2_alg».proof.Proof.Gen.KernelIdeal.Frame
import proofs.«166561_g21534966022541_cont_8to1_1342_2_alg».proof.Proof.Layer0
import proofs.«166561_g21534966022541_cont_8to1_1342_2_alg».proof.Proof.Layer1
import proofs.«166561_g21534966022541_cont_8to1_1342_2_alg».proof.Proof.Glue
import proofs.«166561_g21534966022541_cont_8to1_1342_2_alg».proof.Proof.KernelRun
import Idealize.ShloMosaic.Lib.StableHlo.Run

set_option maxRecDepth 16384

noncomputable section

namespace Cert.KernelIdeal.Values

open Cert.KernelIdeal Cert.KernelIdeal.Gen Cert.KernelIdeal.Glue
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arguments, each at its literal type -/

abbrev argX (c : Dev nD) : FVec Ideal S10000x128 .f32 := m ((c : Thread nD τ).loc main_arg0)
abbrev argA (c : Dev nD) : FVec Ideal S10000x10000 .f32 := m ((c : Thread nD τ).loc main_arg1)
abbrev argW1 (c : Dev nD) : FVec Ideal S256x128 .f32 := m ((c : Thread nD τ).loc main_arg2)
abbrev argB1 (c : Dev nD) : FVec Ideal S128 .f32 := m ((c : Thread nD τ).loc main_arg3)
abbrev argW2 (c : Dev nD) : FVec Ideal S256x128 .f32 := m ((c : Thread nD τ).loc main_arg4)
abbrev argB2 (c : Dev nD) : FVec Ideal S128 .f32 := m ((c : Thread nD τ).loc main_arg5)

/-- The first layer's result. -/
abbrev hidden (c : Dev nD) : FVec Ideal S10000x128 .f32 :=
  Sage.layerRelu (argA m c) (argX m c) (argW1 m c) (argB1 m c)

/-! ## The first call's entry: the launch memory after the first host stretch -/

theorem V1_adj (c : Dev nD) : (V1 m ρ c main_arg1 : FVec Ideal S10000x10000 .f32) = argA m c := by
  show StableHlo.after hostOps0 (W0 m ρ c) (Proc.devRef .tc main_arg1) = _
  dsimp only [hostOps0]
  after_results <;> rfl
theorem V1_own (c : Dev nD) : (V1 m ρ c main_arg0 : FVec Ideal S10000x128 .f32) = argX m c := by
  show StableHlo.after hostOps0 (W0 m ρ c) (Proc.devRef .tc main_arg0) = _
  dsimp only [hostOps0]
  after_results <;> rfl
theorem V1_wide (c : Dev nD) : (V1 m ρ c main_v2 : FVec Ideal S10000x129 .bf16) = wideV (argX m c) := by
  show StableHlo.after hostOps0 (W0 m ρ c) (Proc.devRef .tc main_v2) = _
  dsimp only [hostOps0]
  after_results <;> rfl
theorem V1_up (c : Dev nD) : (V1 m ρ c main_v3 : FVec Ideal S128x128 .f32) = upV (argW1 m c) := by
  show StableHlo.after hostOps0 (W0 m ρ c) (Proc.devRef .tc main_v3) = _
  dsimp only [hostOps0]
  after_results <;> rfl
theorem V1_low (c : Dev nD) : (V1 m ρ c main_v4 : FVec Ideal S128x128 .f32) = lowV (argW1 m c) := by
  show StableHlo.after hostOps0 (W0 m ρ c) (Proc.devRef .tc main_v4) = _
  dsimp only [hostOps0]
  after_results <;> rfl
theorem V1_bias (c : Dev nD) : (V1 m ρ c main_v5 : FVec Ideal S1x128 .f32) = biasV (argB1 m c) := by
  show StableHlo.after hostOps0 (W0 m ρ c) (Proc.devRef .tc main_v5) = _
  dsimp only [hostOps0]
  after_results <;> rfl
/-- The second weights and bias are not touched by the first stretch. -/
theorem W1_W2 (c : Dev nD) : (W1 m ρ c (Proc.devRef .tc main_arg4) : FVec Ideal S256x128 .f32) = argW2 m c := by
  show StableHlo.after hostOps0 (W0 m ρ c) (Proc.devRef .tc main_arg4) = _
  dsimp only [hostOps0]
  after_results <;> rfl
theorem W1_B2 (c : Dev nD) : (W1 m ρ c (Proc.devRef .tc main_arg5) : FVec Ideal S128 .f32) = argB2 m c := by
  show StableHlo.after hostOps0 (W0 m ρ c) (Proc.devRef .tc main_arg5) = _
  dsimp only [hostOps0]
  after_results <;> rfl

/-- What the first call leaves in its result array is the first layer of the arguments. -/
theorem first_value (c : Dev nD) : (dat0 (V1 m ρ) c).arrAt 6 cfg0.N = hidden m c := by
  rw [Layer0.final]
  funext y
  show Body.act0 (Sage.rowFn (n := 10000) (Layer0.adjArr (V1 m ρ) c) (Layer0.wideArr (V1 m ρ) c) (Layer0.ownArr (V1 m ρ) c)
      (Layer0.upArr (V1 m ρ) c) (Layer0.lowArr (V1 m ρ) c) (Layer0.biasArr (V1 m ρ) c) (y 0) (y 1))
    = Body.act0 (Sage.layerAt (argA m c) (argX m c) (argW1 m c) (argB1 m c) (y 0) (y 1))
  refine congrArg Body.act0 ?_
  refine (Sage.rowFn_congr (argA m c) (Layer0.adjArr (V1 m ρ) c) (wideV (argX m c)) (Layer0.wideArr (V1 m ρ) c)
    (argX m c) (Layer0.ownArr (V1 m ρ) c) (upV (argW1 m c)) (Layer0.upArr (V1 m ρ) c) (lowV (argW1 m c)) (Layer0.lowArr (V1 m ρ) c)
    (biasV (argB1 m c)) (Layer0.biasArr (V1 m ρ) c) (y 0) (y 0) (y 1)
    (fun l => congrFun (V1_adj m ρ c) _) (fun l k => congrFun (V1_wide m ρ c) _) (fun k => congrFun (V1_own m ρ c) _)
    (fun k q => congrFun (V1_up m ρ c) _) (fun k q => congrFun (V1_low m ρ c) _) (fun q => congrFun (V1_bias m ρ c) _)).trans ?_
  exact kernelLayer_eq (argA m c) (argX m c) (argW1 m c) (argB1 m c) (y 0) (y 1)

/-! ## The first call's exit -/

/-- The adjacency is an input array of the first call: it leaves the call as it entered. -/
theorem W2_adj (c : Dev nD) : (W2 m ρ c (Proc.devRef .tc main_arg1) : FVec Ideal S10000x10000 .f32) = argA m c :=
  ((W2_arr m ρ c 0).trans (((dat0 (V1 m ρ) c).arrAt_in 0 rfl _).trans (A_eq0 (V1 m ρ) c 0))).trans (V1_adj m ρ c)
/-- The first call's result array at its exit. -/
theorem W2_hidden (c : Dev nD) : (W2 m ρ c (Proc.devRef .tc main_v6) : FVec Ideal S10000x128 .f32) = hidden m c :=
  (W2_arr m ρ c 6).trans (first_value m ρ c)
/-- The second weights and bias are no array of the first call. -/
theorem W2_W2 (c : Dev nD) : (W2 m ρ c (Proc.devRef .tc main_arg4) : FVec Ideal S256x128 .f32) = argW2 m c :=
  (W2_of_ne m ρ c main_arg4 (by decide)).trans (W1_W2 m ρ c)
theorem W2_B2 (c : Dev nD) : (W2 m ρ c (Proc.devRef .tc main_arg5) : FVec Ideal S128 .f32) = argB2 m c :=
  (W2_of_ne m ρ c main_arg5 (by decide)).trans (W1_B2 m ρ c)

/-! ## The second call's entry: the first call's exit after the second host stretch -/

theorem V3_adj (c : Dev nD) : (V3 m ρ c main_arg1 : FVec Ideal S10000x10000 .f32) = argA m c := by
  show StableHlo.after hostOps1 (W2 m ρ c) (Proc.devRef .tc main_arg1) = _
  dsimp only [hostOps1]
  after_results
  exact W2_adj m ρ c
theorem V3_own (c : Dev nD) : (V3 m ρ c main_v6 : FVec Ideal S10000x128 .f32) = hidden m c := by
  show StableHlo.after hostOps1 (W2 m ρ c) (Proc.devRef .tc main_v6) = _
  dsimp only [hostOps1]
  after_results
  exact W2_hidden m ρ c
theorem V3_wide (c : Dev nD) : (V3 m ρ c main_v9 : FVec Ideal S10000x129 .bf16) = wideV (hidden m c) := by
  show StableHlo.after hostOps1 (W2 m ρ c) (Proc.devRef .tc main_v9) = _
  dsimp only [hostOps1]
  after_results
  exact congrArg wideV (W2_hidden m ρ c)
theorem V3_up (c : Dev nD) : (V3 m ρ c main_v10 : FVec Ideal S128x128 .f32) = upV (argW2 m c) := by
  show StableHlo.after hostOps1 (W2 m ρ c) (Proc.devRef .tc main_v10) = _
  dsimp only [hostOps1]
  after_results
  exact congrArg upV (W2_W2 m ρ c)
theorem V3_low (c : Dev nD) : (V3 m ρ c main_v11 : FVec Ideal S128x128 .f32) = lowV (argW2 m c) := by
  show StableHlo.after hostOps1 (W2 m ρ c) (Proc.devRef .tc main_v11) = _
  dsimp only [hostOps1]
  after_results
  exact congrArg lowV (W2_W2 m ρ c)
theorem V3_bias (c : Dev nD) : (V3 m ρ c main_v12 : FVec Ideal S1x128 .f32) = biasV (argB2 m c) := by
  show StableHlo.after hostOps1 (W2 m ρ c) (Proc.devRef .tc main_v12) = _
  dsimp only [hostOps1]
  after_results
  exact congrArg biasV (W2_B2 m ρ c)

/-- What the second call leaves in its result array is the second layer of the first layer's result. -/
theorem second_value (c : Dev nD) :
    (dat1 (V3 m ρ) c).arrAt 6 cfg1.N = Sage.layer (argA m c) (hidden m c) (argW2 m c) (argB2 m c) := by
  rw [Layer1.final]
  funext y
  show Body.act1 (Sage.rowFn (n := 10000) (Layer1.adjArr (V3 m ρ) c) (Layer1.wideArr (V3 m ρ) c) (Layer1.ownArr (V3 m ρ) c)
      (Layer1.upArr (V3 m ρ) c) (Layer1.lowArr (V3 m ρ) c) (Layer1.biasArr (V3 m ρ) c) (y 0) (y 1))
    = Sage.layerAt (argA m c) (hidden m c) (argW2 m c) (argB2 m c) (y 0) (y 1)
  refine (Sage.rowFn_congr (argA m c) (Layer1.adjArr (V3 m ρ) c) (wideV (hidden m c)) (Layer1.wideArr (V3 m ρ) c)
    (hidden m c) (Layer1.ownArr (V3 m ρ) c) (upV (argW2 m c)) (Layer1.upArr (V3 m ρ) c) (lowV (argW2 m c)) (Layer1.lowArr (V3 m ρ) c)
    (biasV (argB2 m c)) (Layer1.biasArr (V3 m ρ) c) (y 0) (y 0) (y 1)
    (fun l => congrFun (V3_adj m ρ c) _) (fun l k => congrFun (V3_wide m ρ c) _) (fun k => congrFun (V3_own m ρ c) _)
    (fun k q => congrFun (V3_up m ρ c) _) (fun k q => congrFun (V3_low m ρ c) _) (fun q => congrFun (V3_bias m ρ c) _)).trans ?_
  exact kernelLayer_eq (argA m c) (hidden m c) (argW2 m c) (argB2 m c) (y 0) (y 1)

/-! ## The run -/

/-- Every weakly fair execution of the kernel program terminates, nothing faulting, with the result array at the two
    layers of the arguments and the arguments as launched. -/
theorem run : θ_run defs (onTc (τ := τ) (main (F := Ideal))) ⟨m, fun _ => 0, ρ⟩ (fun r => ∀ c : Dev nD,
      r.2.mem ((c.tc : Thread nD τ).loc main_v13) = Sage.layer (argA m c) (hidden m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨(h c).1.trans (((W4_arr m ρ c 6).trans (second_value m ρ c))), (h c).2⟩)
    (Cert.KernelIdeal.RunNamed.run_named m ρ)

end Cert.KernelIdeal.Values

end
-- ==== Proof.RefValue.lean ====
/-
  The reference's result as the specification's function of the arguments.

  The reference applies the same few host operations twice: row sums of the adjacency floored at ε and laid as a column;
  the adjacency times the features, divided by that column; the features and those means joined side by side and
  multiplied by the 256 × 128 weights; the bias added along the rows. `degV`, `meanV`, `layerV` name these stages over
  whole arrays, and the run's term is `layerV` of `max · 0` of `layerV` by unfolding. Read at an entry: the host's sum is
  `0 + Σ`, the two products are sums over the contracted coordinate, and the sum over the 256 joined columns splits
  into the sum over the first 128 (the node's own features against the upper weights) and the last 128 (the means
  against the lower weights). That is `Sage.layerAt`.
-/
import proofs.«166561_g21534966022541_cont_8to1_1342_2_alg».proof.Proof.Gen.ReferenceIdeal.Run
import proofs.«166561_g21534966022541_cont_8to1_1342_2_alg».proof.Proof.Gen.ReferenceIdeal.Read
import proofs.«166561_g21534966022541_cont_8to1_1342_2_alg».proof.Proof.Spec
import proofs.«166561_g21534966022541_cont_8to1_1342_2_alg».proof.Proof.LibPlainDot
import proofs.«166561_g21534966022541_cont_8to1_1342_2_alg».proof.Proof.LibRowLayout

noncomputable section

namespace Cert.ReferenceIdeal.RefValue

open Cert.ReferenceIdeal Cert.ReferenceIdeal.Gen Cert.ReferenceIdeal.Read
open Idealize.ShloMosaic Idealize.ShloMosaic.ValueIdx

/-- The floored degrees, as a column. -/
def degV (A : FVec Ideal S10000x10000 .f32) : FVec Ideal S10000x1 .f32 :=
  maximumf (broadcastInDim S10000x1 ![] bcast_S_S10000x1 (id (constant S_ .f32 0x358637BD#32)))
    (broadcastInDim S10000x1 ![0] bcast_S10000_S10000x1_0
      (Host.reduceAdd A (constant S_ .f32 0x00000000#32) reducesTo_S10000x10000_S10000_d1 h_S_))

/-- Row `i`'s floored degree: the host's sum starts from zero. -/
theorem degV_apply (A : FVec Ideal S10000x10000 .f32) (i : Fin 10000) :
    degV A (ix2 i (0 : Fin 1)) = max Sage.floorDeg (∑ l : Fin 10000, A (ix2 i l)) := by
  show max (broadcastInDim S10000x1 ![] bcast_S_S10000x1 (id (constant (F := Ideal) S_ .f32 0x358637BD#32)) (ix2 i (0 : Fin 1)))
      (broadcastInDim S10000x1 ![0] bcast_S10000_S10000x1_0 (val_main_v0 (F := Ideal) A) (ix2 i (0 : Fin 1))) = _
  rw [broadcastInDim_apply _ bcast_S_S10000x1 _ (ix2 i (0 : Fin 1)) ix0 (fun a => a.elim0),
    broadcastInDim_apply _ bcast_S10000_S10000x1_0 _ (ix2 i (0 : Fin 1)) (ix1 i) (fun a => match a with
      | ⟨0, _⟩ => by show i.val = if (10000 : Nat) = 1 then 0 else i.val; rw [if_neg (by decide)]),
    val_main_v0_apply]
  show max (Ideal.ofBits .f32 0x358637BD#32) (Ideal.ofBits .f32 0x00000000#32 + ∑ k : Fin 10000, A (idx_main_v0 (ix1 i) k)) = _
  rw [Ideal.ofBits_zero_f32, zero_add]
  refine congrArg (max _) (Finset.sum_congr rfl fun k _ => congrArg A (funext fun a => Fin.ext ?_))
  match a with
  | ⟨0, _⟩ => rfl
  | ⟨1, _⟩ => rfl

/-- The neighbour means. -/
def meanV (A : FVec Ideal S10000x10000 .f32) (X : FVec Ideal S10000x128 .f32) : FVec Ideal S10000x128 .f32 :=
  Host.divf (Host.dotGeneral dot_S10000x10000_S10000x128_S10000x128_1_0_0_1_n_n none A X)
    (broadcastInDim S10000x128 ![0, 1] bcast_S10000x1_S10000x128_0_1 (degV A))

theorem meanV_apply (A : FVec Ideal S10000x10000 .f32) (X : FVec Ideal S10000x128 .f32) (i : Fin 10000) (k : Fin 128) :
    meanV A X (ix2 i k)
      = Ideal.div (∑ l : Fin 10000, A (ix2 i l) * X (ix2 l k)) (max Sage.floorDeg (∑ l : Fin 10000, A (ix2 i l))) := by
  show Ideal.div (Host.dotGeneral dot_S10000x10000_S10000x128_S10000x128_1_0_0_1_n_n none A X (ix2 i k))
      (broadcastInDim S10000x128 ![0, 1] bcast_S10000x1_S10000x128_0_1 (degV A) (ix2 i k)) = _
  rw [Cert.PlainDot.dotGeneral_apply dot_S10000x10000_S10000x128_S10000x128_1_0_0_1_n_n rfl none A X i k,
    broadcastInDim_apply _ bcast_S10000x1_S10000x128_0_1 (degV A) (ix2 i k) (ix2 i (0 : Fin 1)) (fun a => match a with
      | ⟨0, _⟩ => by show i.val = if (10000 : Nat) = 1 then 0 else i.val; rw [if_neg (by decide)]
      | ⟨1, _⟩ => by show (0 : Fin 1).val = if (1 : Nat) = 1 then 0 else k.val; rw [if_pos rfl]; rfl),
    degV_apply]

/-- One layer before any activation. -/
def layerV (A : FVec Ideal S10000x10000 .f32) (X : FVec Ideal S10000x128 .f32) (W : FVec Ideal S256x128 .f32)
    (b : FVec Ideal S128 .f32) : FVec Ideal S10000x128 .f32 :=
  addf (Host.dotGeneral dot_S10000x256_S256x128_S10000x128_1_0_0_1_n_n none
      (concatenate S10000x256 1 [⟨S10000x128, X⟩, ⟨S10000x128, meanV A X⟩] concatenates_S10000x128_S10000x128_S10000x256_d1) W)
    (broadcastInDim S10000x128 ![0, 1] bcast_S1x128_S10000x128_0_1 (broadcastInDim S1x128 ![1] bcast_S128_S1x128_1 b))

/-- A mean read at a column given by its value. -/
theorem meanV_col (A : FVec Ideal S10000x10000 .f32) (X : FVec Ideal S10000x128 .f32) (i : Fin 10000) (z k : Fin 128)
    (hz : z.val = k.val) : meanV A X (ix2 i z) = meanV A X (ix2 i k) := by rw [Fin.ext hz]

/-- Entry `(i, j)` of a layer: the sum over the 256 joined columns is the own-features sum plus the means' sum. -/
theorem layerV_apply (A : FVec Ideal S10000x10000 .f32) (X : FVec Ideal S10000x128 .f32) (W : FVec Ideal S256x128 .f32)
    (b : FVec Ideal S128 .f32) (i : Fin 10000) (j : Fin 128) :
    layerV A X W b (ix2 i j) = Sage.layerAt A X W b i j := by
  unfold layerV Sage.layerAt
  rw [addf_apply,
    Cert.PlainDot.dotGeneral_apply dot_S10000x256_S256x128_S10000x128_1_0_0_1_n_n rfl none _ W i j,
    broadcastInDim_apply _ bcast_S1x128_S10000x128_0_1 _ (ix2 i j) (ix2 (0 : Fin 1) j) (fun a => match a with
      | ⟨0, _⟩ => by show (0 : Fin 1).val = if (1 : Nat) = 1 then 0 else i.val; rw [if_pos rfl]; rfl
      | ⟨1, _⟩ => by show j.val = if (128 : Nat) = 1 then 0 else j.val; rw [if_neg (by decide)]),
    broadcastInDim_apply _ bcast_S128_S1x128_1 b (ix2 (0 : Fin 1) j) (ix1 j) (fun a => match a with
      | ⟨0, _⟩ => by show j.val = if (128 : Nat) = 1 then 0 else j.val; rw [if_neg (by decide)])]
  refine congrArg (· + b (ix1 j)) ?_
  refine Cert.PlainDot.sum_two_blocks (a := 128) (b := 128) rfl _ _ _ (fun k => ?_) (fun k => ?_)
  · rw [Cert.RowLayout.concatCols_apply X (meanV A X) concatenates_S10000x128_S10000x128_S10000x256_d1 rfl i _,
      dif_pos (show (⟨k.val, by have := k.isLt; omega⟩ : Fin 256).val < 128 from k.isLt)]
  · rw [Cert.RowLayout.concatCols_apply X (meanV A X) concatenates_S10000x128_S10000x128_S10000x256_d1 rfl i _,
      dif_neg (show ¬ (⟨128 + k.val, by have := k.isLt; omega⟩ : Fin 256).val < 128 from by
        show ¬ 128 + k.val < 128; omega),
      meanV_col A X i _ k (by show 128 + k.val - 128 = k.val; omega), meanV_apply]

/-- `max · 0` over a whole array. -/
def reluV (h : FVec Ideal S10000x128 .f32) : FVec Ideal S10000x128 .f32 :=
  maximumf h (broadcastInDim S10000x128 ![] bcast_S_S10000x128 (constant S_ .f32 0x00000000#32))

theorem reluV_apply (h : FVec Ideal S10000x128 .f32) (y : S10000x128.Idx) :
    reluV h y = max (h y) (Ideal.ofBits .f32 0x00000000#32) := by
  show max (h y) (broadcastInDim S10000x128 ![] bcast_S_S10000x128 (constant (F := Ideal) S_ .f32 0x00000000#32) y) = _
  rw [broadcastInDim_apply _ bcast_S_S10000x128 _ y ix0 (fun a => a.elim0)]
  rfl

/-- The reference's result: two layers, the first followed by `max · 0`. -/
def refOut (A : FVec Ideal S10000x10000 .f32) (X : FVec Ideal S10000x128 .f32) (W1 : FVec Ideal S256x128 .f32)
    (b1 : FVec Ideal S128 .f32) (W2 : FVec Ideal S256x128 .f32) (b2 : FVec Ideal S128 .f32) : FVec Ideal S10000x128 .f32 :=
  layerV A (reluV (layerV A X W1 b1)) W2 b2

/-- It is the specification's function of the arguments. -/
theorem refOut_eq (A : FVec Ideal S10000x10000 .f32) (X : FVec Ideal S10000x128 .f32) (W1 : FVec Ideal S256x128 .f32)
    (b1 : FVec Ideal S128 .f32) (W2 : FVec Ideal S256x128 .f32) (b2 : FVec Ideal S128 .f32) :
    refOut A X W1 b1 W2 b2 = Sage.layer A (Sage.layerRelu A X W1 b1) W2 b2 := by
  have h1 : reluV (layerV A X W1 b1) = Sage.layerRelu A X W1 b1 := by
    funext y
    obtain ⟨i, j, rfl⟩ : ∃ (i : Fin 10000) (j : Fin 128), y = ix2 i j := ⟨y 0, y 1, eq_ix2 (n0 := 10000) (n1 := 128) y⟩
    rw [reluV_apply, layerV_apply]
    rfl
  funext y
  obtain ⟨i, j, rfl⟩ : ∃ (i : Fin 10000) (j : Fin 128), y = ix2 i j := ⟨y 0, y 1, eq_ix2 (n0 := 10000) (n1 := 128) y⟩
  unfold refOut
  rw [h1, layerV_apply]
  rfl

end Cert.ReferenceIdeal.RefValue

end
-- ==== Proof.lean ====
/-
  Two stacked mean-aggregation graph layers over a dense 10000 × 10000 adjacency matrix: the Pallas program against its
  jnp reference, on the extended reals.

  One layer, for adjacency `A`, features `X`, weights `W` (256 × 128) and bias `b`:
      deg i = max ε (Σ_l A(i,l)),   mean i k = (Σ_l A(i,l) · X(l,k)) / deg i,
      layer i j = Σ_{k<128} X(i,k) · W(k,j) + Σ_{k<128} mean i k · W(128+k,j) + b j      (Proof/Spec.lean),
  and the result is `layer A (max (layer A X W1 b1) 0) W2 b2`.

  The reference computes a layer as written, except that it joins the features and the means side by side and takes ONE
  product with the 256 rows of `W`: a sum over 256 joined columns is the sum over the first 128 plus the sum over the last
  128 (Proof/RefValue.lean). The Pallas program runs one pallas_call per layer over 25 blocks of 400 rows; in each block
  the degree comes out of the same product as the neighbour sums, as column 128 of the adjacency rows times the features
  widened by a column of ones, `Σ_l A(i,l) · 1 = Σ_l A(i,l)`, and the two halves of `W` are applied in two products
  (Proof/Body.lean, Proof/Glue.lean). A block of rows of a layer is the layer of the block of rows, so the 25 blocks
  written back tile the layer (Proof/Layer0.lean, Proof/Layer1.lean), and the second call reads the first call's
  array (Proof/Values.lean). Both sides floor the degree at the same word and divide by the same division, and no
  law used moves a factor across a sum, so the inputs' finiteness is never opened. The ideal pass rewrote nothing, so
  the idealized kernel program is the kernel program's own text.
-/
import proofs.«166561_g21534966022541_cont_8to1_1342_2_alg».proof.Defs
import proofs.«166561_g21534966022541_cont_8to1_1342_2_alg».proof.Proof.Gen.Kernel
import proofs.«166561_g21534966022541_cont_8to1_1342_2_alg».proof.Proof.Gen.Kernel.Skeleton
import proofs.«166561_g21534966022541_cont_8to1_1342_2_alg».proof.Proof.Gen.Kernel.Launch
import proofs.«166561_g21534966022541_cont_8to1_1342_2_alg».proof.Proof.Gen.Kernel.Points
import proofs.«166561_g21534966022541_cont_8to1_1342_2_alg».proof.Proof.Gen.Kernel.Frame
import proofs.«166561_g21534966022541_cont_8to1_1342_2_alg».proof.Proof.Gen.KernelIdeal
import proofs.«166561_g21534966022541_cont_8to1_1342_2_alg».proof.Proof.Gen.KernelIdeal.Skeleton
import proofs.«166561_g21534966022541_cont_8to1_1342_2_alg».proof.Proof.Gen.KernelIdeal.Launch
import proofs.«166561_g21534966022541_cont_8to1_1342_2_alg».proof.Proof.Gen.KernelIdeal.Points
import proofs.«166561_g21534966022541_cont_8to1_1342_2_alg».proof.Proof.Gen.KernelIdeal.Frame
import proofs.«166561_g21534966022541_cont_8to1_1342_2_alg».proof.Proof.Gen.ReferenceIdeal
import proofs.«166561_g21534966022541_cont_8to1_1342_2_alg».proof.Proof.Gen.ReferenceIdeal.Run
import proofs.«166561_g21534966022541_cont_8to1_1342_2_alg».proof.Proof.Gen.Pre_finite_inputs
import proofs.«166561_g21534966022541_cont_8to1_1342_2_alg».proof.Proof.Values
import proofs.«166561_g21534966022541_cont_8to1_1342_2_alg».proof.Proof.RefValue
import Idealize.ShloMosaic.Adequacy
import Idealize.ShloMosaic.Init

noncomputable section

namespace Cert.Proof

open Idealize.ShloMosaic Idealize.SL.Sem

/-- The kernel program runs and leaves its arguments alone. -/
theorem frame_p : Cert.frame_Kernel := fun m ρ _ => Cert.Kernel.Gen.frame m ρ
/-- So does its reading on the extended reals. -/
theorem frame_pi : Cert.frame_KernelIdeal := fun m ρ _ => Cert.KernelIdeal.Gen.frame m ρ
/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two layers of the arguments in their result
    arrays. -/
theorem algebraic : Cert.algebraic_KernelIdeal_ReferenceIdeal := by
  intro m ρ m' ρ' _ hagree
  refine ⟨fun c => Sage.layer (Cert.KernelIdeal.Values.argA m c) (Cert.KernelIdeal.Values.hidden m c)
      (Cert.KernelIdeal.Values.argW2 m c) (Cert.KernelIdeal.Values.argB2 m c), Cert.KernelIdeal.Values.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact Cert.ReferenceIdeal.RefValue.refOut_eq (Cert.KernelIdeal.Values.argA m c) (Cert.KernelIdeal.Values.argX m c)
    (Cert.KernelIdeal.Values.argW1 m c) (Cert.KernelIdeal.Values.argB1 m c) (Cert.KernelIdeal.Values.argW2 m c)
    (Cert.KernelIdeal.Values.argB2 m c)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
